-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x25x128x128 : Shape := ⟨4, ![8, 25, 128, 128]⟩
abbrev S8x256x128x128 : Shape := ⟨4, ![8, 256, 128, 128]⟩
abbrev S_ : Shape := ⟨0, ![]⟩

class Facts : Prop where
  bcast_S_S8x25x128x128 : S_.BroadcastsInDim S8x25x128x128 (![] : Fin 0 → Fin S8x25x128x128.rank)
  reducesTo_S8x25x128x128_S_d0_1_2_3 : S8x25x128x128.ReducesTo [0, 1, 2, 3] S_
  h_S_ : 0 < S_.numel
  bcast_S_S8x256x128x128 : S_.BroadcastsInDim S8x256x128x128 (![] : Fin 0 → Fin S8x256x128x128.rank)
  reducesTo_S8x256x128x128_S_d0_1_2_3 : S8x256x128x128.ReducesTo [0, 1, 2, 3] S_

variable [Facts]

def fn {F : FTy → Type} [FloatOps F] (main_arg0 : FVec F S8x25x128x128 .f32) (main_arg1 : FVec F S8x256x128x128 .f32) : IVec S_ 1 :=
  let main_v0 : FVec F S8x25x128x128 .f32 := Host.absf main_arg0
  let main_cst : FVec F S_ .f32 := constant S_ .f32 0x7F800000#32
  let main_v1 : FVec F S8x25x128x128 .f32 := broadcastInDim S8x25x128x128 ![] bcast_S_S8x25x128x128 main_cst
  let main_v2 : IVec S8x25x128x128 1 := cmpf .olt main_v0 main_v1
  let main_c : IVec S_ 1 := constantI S_ 1 1#1
  let main_v3 : IVec S_ 1 := (fun x v => Host.reduce IntOp.andi x v reducesTo_S8x25x128x128_S_d0_1_2_3 h_S_) main_v2 main_c
  let main_v4 : FVec F S8x256x128x128 .f32 := Host.absf main_arg1
  let main_cst_0 : FVec F S_ .f32 := constant S_ .f32 0x7F800000#32
  let main_v5 : FVec F S8x256x128x128 .f32 := broadcastInDim S8x256x128x128 ![] bcast_S_S8x256x128x128 main_cst_0
  let main_v6 : IVec S8x256x128x128 1 := cmpf .olt main_v4 main_v5
  let main_c_1 : IVec S_ 1 := constantI S_ 1 1#1
  let main_v7 : IVec S_ 1 := (fun x v => Host.reduce IntOp.andi x v reducesTo_S8x256x128x128_S_d0_1_2_3 h_S_) main_v6 main_c_1
  let main_v8 : IVec S_ 1 := andi main_v3 main_v7
  main_v8
-- ==== Kernel.lean ====
abbrev S8x25x128x128 : Shape := ⟨4, ![8, 25, 128, 128]⟩
abbrev S8x256x128x128 : Shape := ⟨4, ![8, 256, 128, 128]⟩
abbrev S_ : Shape := ⟨0, ![]⟩
abbrev S8x25x132x132 : Shape := ⟨4, ![8, 25, 132, 132]⟩
abbrev S1x25x132x132 : Shape := ⟨4, ![1, 25, 132, 132]⟩
abbrev S1x64x128x128 : Shape := ⟨4, ![1, 64, 128, 128]⟩
abbrev S128x128 : Shape := ⟨2, ![128, 128]⟩
abbrev S1x1x128x128 : Shape := ⟨4, ![1, 1, 128, 128]⟩

abbrev nBuf : Space → Nat
  | .hbm => 6
  | .vmem => 7
  | .smem => 0
  | _ => 0

abbrev bufTy : (tb : Table) → Fin (tcTables nBuf tb) → BufTy
  | .hbm, ⟨0, _⟩ => ⟨S8x25x128x128, .f32⟩
  | .hbm, ⟨1, _⟩ => ⟨S8x256x128x128, .f32⟩
  | .hbm, ⟨2, _⟩ => ⟨S_, .i32⟩
  | .hbm, ⟨3, _⟩ => ⟨S_, .f32⟩
  | .hbm, ⟨4, _⟩ => ⟨S8x25x132x132, .f32⟩
  | .hbm, ⟨5, _⟩ => ⟨S8x256x128x128, .f32⟩
  | .local _ .vmem, ⟨0, _⟩ => ⟨S1x25x132x132, .f32⟩
  | .local _ .vmem, ⟨1, _⟩ => ⟨S1x25x132x132, .f32⟩
  | .local _ .vmem, ⟨2, _⟩ => ⟨S1x64x128x128, .f32⟩
  | .local _ .vmem, ⟨3, _⟩ => ⟨S1x64x128x128, .f32⟩
  | .local _ .vmem, ⟨4, _⟩ => ⟨S1x64x128x128, .f32⟩
  | .local _ .vmem, ⟨5, _⟩ => ⟨S1x64x128x128, .f32⟩
  | .local _ .vmem, ⟨6, _⟩ => ⟨S128x128, .f32⟩
  | _, _ => ⟨S8x25x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x25x132x132 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x64x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  pads_S8x25x128x128_S8x25x132x132_000_000_220_220 : S8x25x128x128.Pads (![0, 0, 2, 2] : Fin 4 → Nat) ![0, 0, 2, 2] ![0, 0, 0, 0] S8x25x132x132
  h_S_ : 0 < S_.numel
  inb_S1x25x132x132_S1x1x128x128_0_0_4_4 : ∀ a, (![0, 0, 4, 4] : Fin 4 → Nat) a + S1x1x128x128.size a ≤ S1x25x132x132.size a
  h_S1x1x128x128 : 0 < S1x1x128x128.numel
  shapeCasts_S1x1x128x128_S128x128 : S1x1x128x128.ShapeCasts S128x128
  inb_S1x25x132x132_S1x1x128x128_0_1_4_3 : ∀ a, (![0, 1, 4, 3] : Fin 4 → Nat) a + S1x1x128x128.size a ≤ S1x25x132x132.size a
  inb_S1x25x132x132_S1x1x128x128_0_2_4_2 : ∀ a, (![0, 2, 4, 2] : Fin 4 → Nat) a + S1x1x128x128.size a ≤ S1x25x132x132.size a
  inb_S1x25x132x132_S1x1x128x128_0_3_4_1 : ∀ a, (![0, 3, 4, 1] : Fin 4 → Nat) a + S1x1x128x128.size a ≤ S1x25x132x132.size a
  inb_S1x25x132x132_S1x1x128x128_0_4_4_0 : ∀ a, (![0, 4, 4, 0] : Fin 4 → Nat) a + S1x1x128x128.size a ≤ S1x25x132x132.size a
  inb_S1x25x132x132_S1x1x128x128_0_5_3_4 : ∀ a, (![0, 5, 3, 4] : Fin 4 → Nat) a + S1x1x128x128.size a ≤ S1x25x132x132.size a
  inb_S1x25x132x132_S1x1x128x128_0_6_3_3 : ∀ a, (![0, 6, 3, 3] : Fin 4 → Nat) a + S1x1x128x128.size a ≤ S1x25x132x132.size a
  inb_S1x25x132x132_S1x1x128x128_0_7_3_2 : ∀ a, (![0, 7, 3, 2] : Fin 4 → Nat) a + S1x1x128x128.size a ≤ S1x25x132x132.size a
  inb_S1x25x132x132_S1x1x128x128_0_8_3_1 : ∀ a, (![0, 8, 3, 1] : Fin 4 → Nat) a + S1x1x128x128.size a ≤ S1x25x132x132.size a
  inb_S1x25x132x132_S1x1x128x128_0_9_3_0 : ∀ a, (![0, 9, 3, 0] : Fin 4 → Nat) a + S1x1x128x128.size a ≤ S1x25x132x132.size a
  inb_S1x25x132x132_S1x1x128x128_0_10_2_4 : ∀ a, (![0, 10, 2, 4] : Fin 4 → Nat) a + S1x1x128x128.size a ≤ S1x25x132x132.size a
  inb_S1x25x132x132_S1x1x128x128_0_11_2_3 : ∀ a, (![0, 11, 2, 3] : Fin 4 → Nat) a + S1x1x128x128.size a ≤ S1x25x132x132.size a
  inb_S1x25x132x132_S1x1x128x128_0_12_2_2 : ∀ a, (![0, 12, 2, 2] : Fin 4 → Nat) a + S1x1x128x128.size a ≤ S1x25x132x132.size a
  inb_S1x25x132x132_S1x1x128x128_0_13_2_1 : ∀ a, (![0, 13, 2, 1] : Fin 4 → Nat) a + S1x1x128x128.size a ≤ S1x25x132x132.size a
  inb_S1x25x132x132_S1x1x128x128_0_14_2_0 : ∀ a, (![0, 14, 2, 0] : Fin 4 → Nat) a + S1x1x128x128.size a ≤ S1x25x132x132.size a
  inb_S1x25x132x132_S1x1x128x128_0_15_1_4 : ∀ a, (![0, 15, 1, 4] : Fin 4 → Nat) a + S1x1x128x128.size a ≤ S1x25x132x132.size a
  inb_S1x25x132x132_S1x1x128x128_0_16_1_3 : ∀ a, (![0, 16, 1, 3] : Fin 4 → Nat) a + S1x1x128x128.size a ≤ S1x25x132x132.size a
  inb_S1x25x132x132_S1x1x128x128_0_17_1_2 : ∀ a, (![0, 17, 1, 2] : Fin 4 → Nat) a + S1x1x128x128.size a ≤ S1x25x132x132.size a
  inb_S1x25x132x132_S1x1x128x128_0_18_1_1 : ∀ a, (![0, 18, 1, 1] : Fin 4 → Nat) a + S1x1x128x128.size a ≤ S1x25x132x132.size a
  inb_S1x25x132x132_S1x1x128x128_0_19_1_0 : ∀ a, (![0, 19, 1, 0] : Fin 4 → Nat) a + S1x1x128x128.size a ≤ S1x25x132x132.size a
  inb_S1x25x132x132_S1x1x128x128_0_20_0_4 : ∀ a, (![0, 20, 0, 4] : Fin 4 → Nat) a + S1x1x128x128.size a ≤ S1x25x132x132.size a
  inb_S1x25x132x132_S1x1x128x128_0_21_0_3 : ∀ a, (![0, 21, 0, 3] : Fin 4 → Nat) a + S1x1x128x128.size a ≤ S1x25x132x132.size a
  inb_S1x25x132x132_S1x1x128x128_0_22_0_2 : ∀ a, (![0, 22, 0, 2] : Fin 4 → Nat) a + S1x1x128x128.size a ≤ S1x25x132x132.size a
  inb_S1x25x132x132_S1x1x128x128_0_23_0_1 : ∀ a, (![0, 23, 0, 1] : Fin 4 → Nat) a + S1x1x128x128.size a ≤ S1x25x132x132.size a
  inb_S1x25x132x132_S1x1x128x128_0_24_0_0 : ∀ a, (![0, 24, 0, 0] : Fin 4 → Nat) a + S1x1x128x128.size a ≤ S1x25x132x132.size a
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x64x128x128_S1x64x128x128_0_0_0_0 : ∀ a, (![0, 0, 0, 0] : Fin 4 → Nat) a + S1x64x128x128.size a ≤ S1x64x128x128.size a
  h_S1x64x128x128 : 0 < S1x64x128x128.numel
  shapeCasts_S128x128_S1x1x128x128 : S128x128.ShapeCasts S1x1x128x128
  broadcasts_S1x1x128x128_S1x64x128x128 : S1x1x128x128.Broadcasts S1x64x128x128
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x25x132x132.size a ≤ S8x25x132x132.size a
  hwx0_0 : ∀ i : grid0.Coords, EltTy.bits .f32 = 32 ∨ (Rect.block (s := S8x25x132x132) S1x25x132x132.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x128x128.size a ≤ S8x256x128x128.size a
  hwx0_1 : ∀ i : grid0.Coords, EltTy.bits .f32 = 32 ∨ (Rect.block (s := S8x256x128x128) S1x64x128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x128x128.size a ≤ S8x256x128x128.size a
  hwx0_2 : ∀ i : grid0.Coords, EltTy.bits .f32 = 32 ∨ (Rect.block (s := S8x256x128x128) S1x64x128x128.size (cc0_transform_2 i) (hinb0_2 i)).WholeWords (EltTy.packing .f32)

variable [Facts₀]

abbrev win0_0 : Pipeline.Window sig grid0 :=
  Pipeline.Window.ofSpec (Memref.whole main_v0) S1x25x132x132.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x64x128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x64x128x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x25x128x128 : Shape := ⟨4, ![8, 25, 128, 128]⟩
abbrev S8x256x128x128 : Shape := ⟨4, ![8, 256, 128, 128]⟩
abbrev S_ : Shape := ⟨0, ![]⟩
abbrev S8x25x132x132 : Shape := ⟨4, ![8, 25, 132, 132]⟩
abbrev S8x128x128 : Shape := ⟨3, ![8, 128, 128]⟩
abbrev S8x1x128x128 : Shape := ⟨4, ![8, 1, 128, 128]⟩

abbrev nBuf : Space → Nat
  | .hbm => 85
  | .vmem => 0
  | .smem => 0
  | _ => 0

abbrev bufTy : (tb : Table) → Fin (tcTables nBuf tb) → BufTy
  | .hbm, ⟨0, _⟩ => ⟨S8x25x128x128, .f32⟩
  | .hbm, ⟨1, _⟩ => ⟨S8x256x128x128, .f32⟩
  | .hbm, ⟨2, _⟩ => ⟨S_, .i32⟩
  | .hbm, ⟨3, _⟩ => ⟨S_, .f32⟩
  | .hbm, ⟨4, _⟩ => ⟨S8x25x132x132, .f32⟩
  | .hbm, ⟨5, _⟩ => ⟨S_, .f32⟩
  | .hbm, ⟨6, _⟩ => ⟨S8x128x128, .f32⟩
  | .hbm, ⟨7, _⟩ => ⟨S8x1x128x128, .f32⟩
  | .hbm, ⟨8, _⟩ => ⟨S8x128x128, .f32⟩
  | .hbm, ⟨9, _⟩ => ⟨S8x128x128, .f32⟩
  | .hbm, ⟨10, _⟩ => ⟨S8x1x128x128, .f32⟩
  | .hbm, ⟨11, _⟩ => ⟨S8x128x128, .f32⟩
  | .hbm, ⟨12, _⟩ => ⟨S8x128x128, .f32⟩
  | .hbm, ⟨13, _⟩ => ⟨S8x1x128x128, .f32⟩
  | .hbm, ⟨14, _⟩ => ⟨S8x128x128, .f32⟩
  | .hbm, ⟨15, _⟩ => ⟨S8x128x128, .f32⟩
  | .hbm, ⟨16, _⟩ => ⟨S8x1x128x128, .f32⟩
  | .hbm, ⟨17, _⟩ => ⟨S8x128x128, .f32⟩
  | .hbm, ⟨18, _⟩ => ⟨S8x128x128, .f32⟩
  | .hbm, ⟨19, _⟩ => ⟨S8x1x128x128, .f32⟩
  | .hbm, ⟨20, _⟩ => ⟨S8x128x128, .f32⟩
  | .hbm, ⟨21, _⟩ => ⟨S8x128x128, .f32⟩
  | .hbm, ⟨22, _⟩ => ⟨S8x1x128x128, .f32⟩
  | .hbm, ⟨23, _⟩ => ⟨S8x128x128, .f32⟩
  | .hbm, ⟨24, _⟩ => ⟨S8x128x128, .f32⟩
  | .hbm, ⟨25, _⟩ => ⟨S8x1x128x128, .f32⟩
  | .hbm, ⟨26, _⟩ => ⟨S8x128x128, .f32⟩
  | .hbm, ⟨27, _⟩ => ⟨S8x128x128, .f32⟩
  | .hbm, ⟨28, _⟩ => ⟨S8x1x128x128, .f32⟩
  | .hbm, ⟨29, _⟩ => ⟨S8x128x128, .f32⟩
  | .hbm, ⟨30, _⟩ => ⟨S8x128x128, .f32⟩
  | .hbm, ⟨31, _⟩ => ⟨S8x1x128x128, .f32⟩
  | .hbm, ⟨32, _⟩ => ⟨S8x128x128, .f32⟩
  | .hbm, ⟨33, _⟩ => ⟨S8x128x128, .f32⟩
  | .hbm, ⟨34, _⟩ => ⟨S8x1x128x128, .f32⟩
  | .hbm, ⟨35, _⟩ => ⟨S8x128x128, .f32⟩
  | .hbm, ⟨36, _⟩ => ⟨S8x128x128, .f32⟩
  | .hbm, ⟨37, _⟩ => ⟨S8x1x128x128, .f32⟩
  | .hbm, ⟨38, _⟩ => ⟨S8x128x128, .f32⟩
  | .hbm, ⟨39, _⟩ => ⟨S8x128x128, .f32⟩
  | .hbm, ⟨40, _⟩ => ⟨S8x1x128x128, .f32⟩
  | .hbm, ⟨41, _⟩ => ⟨S8x128x128, .f32⟩
  | .hbm, ⟨42, _⟩ => ⟨S8x128x128, .f32⟩
  | .hbm, ⟨43, _⟩ => ⟨S8x1x128x128, .f32⟩
  | .hbm, ⟨44, _⟩ => ⟨S8x128x128, .f32⟩
  | .hbm, ⟨45, _⟩ => ⟨S8x128x128, .f32⟩
  | .hbm, ⟨46, _⟩ => ⟨S8x1x128x128, .f32⟩
  | .hbm, ⟨47, _⟩ => ⟨S8x128x128, .f32⟩
  | .hbm, ⟨48, _⟩ => ⟨S8x128x128, .f32⟩
  | .hbm, ⟨49, _⟩ => ⟨S8x1x128x128, .f32⟩
  | .hbm, ⟨50, _⟩ => ⟨S8x128x128, .f32⟩
  | .hbm, ⟨51, _⟩ => ⟨S8x128x128, .f32⟩
  | .hbm, ⟨52, _⟩ => ⟨S8x1x128x128, .f32⟩
  | .hbm, ⟨53, _⟩ => ⟨S8x128x128, .f32⟩
  | .hbm, ⟨54, _⟩ => ⟨S8x128x128, .f32⟩
  | .hbm, ⟨55, _⟩ => ⟨S8x1x128x128, .f32⟩
  | .hbm, ⟨56, _⟩ => ⟨S8x128x128, .f32⟩
  | .hbm, ⟨57, _⟩ => ⟨S8x128x128, .f32⟩
  | .hbm, ⟨58, _⟩ => ⟨S8x1x128x128, .f32⟩
  | .hbm, ⟨59, _⟩ => ⟨S8x128x128, .f32⟩
  | .hbm, ⟨60, _⟩ => ⟨S8x128x128, .f32⟩
  | .hbm, ⟨61, _⟩ => ⟨S8x1x128x128, .f32⟩
  | .hbm, ⟨62, _⟩ => ⟨S8x128x128, .f32⟩
  | .hbm, ⟨63, _⟩ => ⟨S8x128x128, .f32⟩
  | .hbm, ⟨64, _⟩ => ⟨S8x1x128x128, .f32⟩
  | .hbm, ⟨65, _⟩ => ⟨S8x128x128, .f32⟩
  | .hbm, ⟨66, _⟩ => ⟨S8x128x128, .f32⟩
  | .hbm, ⟨67, _⟩ => ⟨S8x1x128x128, .f32⟩
  | .hbm, ⟨68, _⟩ => ⟨S8x128x128, .f32⟩
  | .hbm, ⟨69, _⟩ => ⟨S8x128x128, .f32⟩
  | .hbm, ⟨70, _⟩ => ⟨S8x1x128x128, .f32⟩
  | .hbm, ⟨71, _⟩ => ⟨S8x128x128, .f32⟩
  | .hbm, ⟨72, _⟩ => ⟨S8x128x128, .f32⟩
  | .hbm, ⟨73, _⟩ => ⟨S8x1x128x128, .f32⟩
  | .hbm, ⟨74, _⟩ => ⟨S8x128x128, .f32⟩
  | .hbm, ⟨75, _⟩ => ⟨S8x128x128, .f32⟩
  | .hbm, ⟨76, _⟩ => ⟨S8x1x128x128, .f32⟩
  | .hbm, ⟨77, _⟩ => ⟨S8x128x128, .f32⟩
  | .hbm, ⟨78, _⟩ => ⟨S8x128x128, .f32⟩
  | .hbm, ⟨79, _⟩ => ⟨S8x1x128x128, .f32⟩
  | .hbm, ⟨80, _⟩ => ⟨S8x128x128, .f32⟩
  | .hbm, ⟨81, _⟩ => ⟨S8x128x128, .f32⟩
  | .hbm, ⟨82, _⟩ => ⟨S8x1x128x128, .f32⟩
  | .hbm, ⟨83, _⟩ => ⟨S8x256x128x128, .f32⟩
  | .hbm, ⟨84, _⟩ => ⟨S8x256x128x128, .f32⟩
  | _, _ => ⟨S8x25x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_v57 : Ref sig .tc := ⟨.hbm, 62, rfl⟩
abbrev main_v58 : Ref sig .tc := ⟨.hbm, 63, rfl⟩
abbrev main_v59 : Ref sig .tc := ⟨.hbm, 64, rfl⟩
abbrev main_v60 : Ref sig .tc := ⟨.hbm, 65, rfl⟩
abbrev main_v61 : Ref sig .tc := ⟨.hbm, 66, rfl⟩
abbrev main_v62 : Ref sig .tc := ⟨.hbm, 67, rfl⟩
abbrev main_v63 : Ref sig .tc := ⟨.hbm, 68, rfl⟩
abbrev main_v64 : Ref sig .tc := ⟨.hbm, 69, rfl⟩
abbrev main_v65 : Ref sig .tc := ⟨.hbm, 70, rfl⟩
abbrev main_v66 : Ref sig .tc := ⟨.hbm, 71, rfl⟩
abbrev main_v67 : Ref sig .tc := ⟨.hbm, 72, rfl⟩
abbrev main_v68 : Ref sig .tc := ⟨.hbm, 73, rfl⟩
abbrev main_v69 : Ref sig .tc := ⟨.hbm, 74, rfl⟩
abbrev main_v70 : Ref sig .tc := ⟨.hbm, 75, rfl⟩
abbrev main_v71 : Ref sig .tc := ⟨.hbm, 76, rfl⟩
abbrev main_v72 : Ref sig .tc := ⟨.hbm, 77, rfl⟩
abbrev main_v73 : Ref sig .tc := ⟨.hbm, 78, rfl⟩
abbrev main_v74 : Ref sig .tc := ⟨.hbm, 79, rfl⟩
abbrev main_v75 : Ref sig .tc := ⟨.hbm, 80, rfl⟩
abbrev main_v76 : Ref sig .tc := ⟨.hbm, 81, rfl⟩
abbrev main_v77 : Ref sig .tc := ⟨.hbm, 82, rfl⟩
abbrev main_v78 : Ref sig .tc := ⟨.hbm, 83, rfl⟩
abbrev main_v79 : Ref sig .tc := ⟨.hbm, 84, rfl⟩

abbrev nD : Nat := 1
abbrev τ : Topo := Topo.v7x

variable {F : FTy → Type} [FloatOps F]

class Facts₀ : Prop where
  pads_S8x25x128x128_S8x25x132x132_000_000_220_220 : S8x25x128x128.Pads (![0, 0, 2, 2] : Fin 4 → Nat) ![0, 0, 2, 2] ![0, 0, 0, 0] S8x25x132x132
  h_S_ : 0 < S_.numel
  bcast_S_S8x128x128 : S_.BroadcastsInDim S8x128x128 (![] : Fin 0 → Fin S8x128x128.rank)
  slices_S8x25x132x132_S8x1x128x128_0_0_4_4 : S8x25x132x132.Slices ![0, 0, 4, 4] S8x1x128x128
  shapeCasts_S8x1x128x128_S8x128x128 : S8x1x128x128.ShapeCasts S8x128x128
  slices_S8x25x132x132_S8x1x128x128_0_1_4_3 : S8x25x132x132.Slices ![0, 1, 4, 3] S8x1x128x128
  slices_S8x25x132x132_S8x1x128x128_0_2_4_2 : S8x25x132x132.Slices ![0, 2, 4, 2] S8x1x128x128
  slices_S8x25x132x132_S8x1x128x128_0_3_4_1 : S8x25x132x132.Slices ![0, 3, 4, 1] S8x1x128x128
  slices_S8x25x132x132_S8x1x128x128_0_4_4_0 : S8x25x132x132.Slices ![0, 4, 4, 0] S8x1x128x128
  slices_S8x25x132x132_S8x1x128x128_0_5_3_4 : S8x25x132x132.Slices ![0, 5, 3, 4] S8x1x128x128
  slices_S8x25x132x132_S8x1x128x128_0_6_3_3 : S8x25x132x132.Slices ![0, 6, 3, 3] S8x1x128x128
  slices_S8x25x132x132_S8x1x128x128_0_7_3_2 : S8x25x132x132.Slices ![0, 7, 3, 2] S8x1x128x128
  slices_S8x25x132x132_S8x1x128x128_0_8_3_1 : S8x25x132x132.Slices ![0, 8, 3, 1] S8x1x128x128
  slices_S8x25x132x132_S8x1x128x128_0_9_3_0 : S8x25x132x132.Slices ![0, 9, 3, 0] S8x1x128x128
  slices_S8x25x132x132_S8x1x128x128_0_10_2_4 : S8x25x132x132.Slices ![0, 10, 2, 4] S8x1x128x128
  slices_S8x25x132x132_S8x1x128x128_0_11_2_3 : S8x25x132x132.Slices ![0, 11, 2, 3] S8x1x128x128
  slices_S8x25x132x132_S8x1x128x128_0_12_2_2 : S8x25x132x132.Slices ![0, 12, 2, 2] S8x1x128x128
  slices_S8x25x132x132_S8x1x128x128_0_13_2_1 : S8x25x132x132.Slices ![0, 13, 2, 1] S8x1x128x128
  slices_S8x25x132x132_S8x1x128x128_0_14_2_0 : S8x25x132x132.Slices ![0, 14, 2, 0] S8x1x128x128
  slices_S8x25x132x132_S8x1x128x128_0_15_1_4 : S8x25x132x132.Slices ![0, 15, 1, 4] S8x1x128x128
  slices_S8x25x132x132_S8x1x128x128_0_16_1_3 : S8x25x132x132.Slices ![0, 16, 1, 3] S8x1x128x128
  slices_S8x25x132x132_S8x1x128x128_0_17_1_2 : S8x25x132x132.Slices ![0, 17, 1, 2] S8x1x128x128
  slices_S8x25x132x132_S8x1x128x128_0_18_1_1 : S8x25x132x132.Slices ![0, 18, 1, 1] S8x1x128x128
  slices_S8x25x132x132_S8x1x128x128_0_19_1_0 : S8x25x132x132.Slices ![0, 19, 1, 0] S8x1x128x128
  slices_S8x25x132x132_S8x1x128x128_0_20_0_4 : S8x25x132x132.Slices ![0, 20, 0, 4] S8x1x128x128
  slices_S8x25x132x132_S8x1x128x128_0_21_0_3 : S8x25x132x132.Slices ![0, 21, 0, 3] S8x1x128x128
  slices_S8x25x132x132_S8x1x128x128_0_22_0_2 : S8x25x132x132.Slices ![0, 22, 0, 2] S8x1x128x128
  slices_S8x25x132x132_S8x1x128x128_0_23_0_1 : S8x25x132x132.Slices ![0, 23, 0, 1] S8x1x128x128
  slices_S8x25x132x132_S8x1x128x128_0_24_0_0 : S8x25x132x132.Slices ![0, 24, 0, 0] S8x1x128x128
  bcast_S8x128x128_S8x1x128x128_0_2_3 : S8x128x128.BroadcastsInDim S8x1x128x128 (![0, 2, 3] : Fin 3 → Fin S8x1x128x128.rank)
  bcast_S8x1x128x128_S8x256x128x128_0_1_2_3 : S8x1x128x128.BroadcastsInDim S8x256x128x128 (![0, 1, 2, 3] : Fin 4 → Fin S8x256x128x128.rank)

variable [Facts₀]

class Facts : Prop extends Facts₀ where

variable [Facts]
-- ==== Proof.TapSum.lean ====
/-
  The per-pixel scale both programs compute, and the result it scales.

  The filter tensor [8, 25, 128, 128] is zero-padded by two rows and two columns on each side to
  P : [8, 25, 132, 132].  Tap j = 5a + b (a, b < 5) of pixel (y, x) in batch n is the entry
  P[n, j, y + (4 - a), x + (4 - b)]: plane j read through a 128 x 128 window whose corner moves up
  and left as a and b grow.  The scale of the pixel is the sum of its 25 taps taken in the order
  j = 0, 1, ..., 24 from the zero word, and the result is the feature tensor times that scale,
  the same scale for every channel:

      out[n, ch, y, x] = low[n, ch, y, x] * ((((0 + tap 0) + tap 1) + ...) + tap 24).

  Both programs add the taps in this same order, so the extended reals' addition is never
  re-associated and no finiteness is used.

  Below: the running sum over an abstract family of 25 planes (so that one definition serves the
  whole padded tensor and one batch's staged block of it), and how one tap is read out of a slice
  of the whole tensor (the reference's way) and out of a window of one batch's block (the kernel's).
-/
import Idealize.ShloMosaic.PureOps.Ideal
import Idealize.ShloMosaic.Lib.ValueIdx
import Idealize.ShloMosaic.Lib.Pipeline.Value
import Idealize.ShloMosaic.Lib.Pipeline.FrameBody

noncomputable section

namespace Cert.TapSum

open Idealize.ShloMosaic Idealize.ShloMosaic.ValueIdx

/-- The zero-padded filter tensor. -/
abbrev SPad : Shape := ⟨4, ![8, 25, 132, 132]⟩
/-- The feature tensor, and the result. -/
abbrev SFea : Shape := ⟨4, ![8, 256, 128, 128]⟩
/-- The per-pixel scales of every batch. -/
abbrev SScale : Shape := ⟨3, ![8, 128, 128]⟩
/-- One tap plane's window, for every batch. -/
abbrev STaps : Shape := ⟨4, ![8, 1, 128, 128]⟩
/-- One batch of the padded tensor. -/
abbrev SPadBlk : Shape := ⟨4, ![1, 25, 132, 132]⟩
/-- One batch's 64 channels of the feature tensor. -/
abbrev SFeaBlk : Shape := ⟨4, ![1, 64, 128, 128]⟩
/-- One tap plane's window in one batch. -/
abbrev STap : Shape := ⟨4, ![1, 1, 128, 128]⟩
/-- One batch's per-pixel scales. -/
abbrev SPix : Shape := ⟨2, ![128, 128]⟩

/-- The filter tensor as the programs receive it. -/
abbrev SFilt : Shape := ⟨4, ![8, 25, 128, 128]⟩
/-- A rank-zero tensor: the padding value. -/
abbrev SNil : Shape := ⟨0, ![]⟩

/-- The filter tensor padded by two rows and two columns on each side of its two last axes; the padding value
    is the integer zero converted to a float, as both programs spell it.  Nothing below looks inside it. -/
def padded (k : SFilt.Idx → EReal) : SPad.Idx → EReal :=
  pad SPad ![0, 0, 2, 2] ![0, 0, 2, 2] ![0, 0, 0, 0] k (sitofp (F := Ideal) .f32 (constantI SNil 32 0#32))

/-- The word the running sum starts from: the same word in both programs, so it is never evaluated. -/
abbrev zeroWord : EReal := Ideal.ofBits .f32 0x00000000#32

/-- The sum of the first k of 25 terms, taken left to right from the zero word. -/
def tapSum (T : Fin 25 → EReal) : (k : Nat) → k ≤ 25 → EReal
  | 0, _ => zeroWord
  | k + 1, h => tapSum T k (Nat.le_of_succ_le h) + T ⟨k, h⟩

/-- Tap j of pixel (y, x) in a family of 25 padded planes: plane j at row y + (4 - j / 5), column x + (4 - j % 5). -/
def tapOf (R : Fin 25 → Fin 132 → Fin 132 → EReal) (y x : Fin 128) (j : Fin 25) : EReal :=
  R j ⟨y.val + (4 - j.val / 5), by have := y.isLt; omega⟩ ⟨x.val + (4 - j.val % 5), by have := x.isLt; omega⟩

/-- The scale of pixel (y, x): its 25 taps summed in order. -/
def scale (R : Fin 25 → Fin 132 → Fin 132 → EReal) (y x : Fin 128) : EReal :=
  tapSum (tapOf R y x) 25 (Nat.le_refl 25)

/-- Batch n's 25 planes of the padded tensor. -/
def planes (P : SPad.Idx → EReal) (n : Fin 8) : Fin 25 → Fin 132 → Fin 132 → EReal :=
  fun j a b => P (ix4 n j a b)

/-- The 25 planes of one batch's block of the padded tensor. -/
def blkPlanes (X : SPadBlk.Idx → EReal) : Fin 25 → Fin 132 → Fin 132 → EReal :=
  fun j a b => X (ix4 0 j a b)

/-- THE RESULT: the feature tensor times the pixel's scale in its batch, for every channel. -/
def scaled (P : SPad.Idx → EReal) (low : SFea.Idx → EReal) : SFea.Idx → EReal :=
  fun i => low i * scale (planes P (i 0)) (i 2) (i 3)

theorem scaled_apply (P : SPad.Idx → EReal) (low : SFea.Idx → EReal) (n : Fin 8) (ch : Fin 256) (y x : Fin 128) :
    scaled P low (ix4 n ch y x) = low (ix4 n ch y x) * scale (planes P n) y x := rfl

/-! ## One tap out of a slice of the whole padded tensor -/

/-- A slice of one plane with 128 rows and columns starts inside the padding margin. -/
theorem slice_bounds {j r c : Nat} (hs : SPad.Slices ![0, j, r, c] STaps) : j < 25 ∧ r + 128 ≤ 132 ∧ c + 128 ≤ 132 := by
  obtain ⟨_, h⟩ := hs
  have h1 := h ⟨1, by decide⟩
  have h2 := h ⟨2, by decide⟩
  have h3 := h ⟨3, by decide⟩
  have h1' : j + 1 ≤ 25 := h1
  have h2' : r + 128 ≤ 132 := h2
  have h3' : c + 128 ≤ 132 := h3
  exact ⟨h1', h2', h3'⟩

/-- The slice [0:8, j:j+1, r:r+128, c:c+128] of the padded tensor with its unit axis dropped, at (n, y, x),
    is the tensor at (n, j, y + r, x + c). -/
theorem slice_tap {α : Type} (P : SPad.Idx → α) {j r c : Nat} (hs : SPad.Slices ![0, j, r, c] STaps)
    (hc : STaps.ShapeCasts SScale) (n : Fin 8) (y x : Fin 128) :
    shapeCast SScale (extractStridedSlice STaps ![0, j, r, c] P hs) hc (ix3 n y x)
      = P (ix4 n ⟨j, (slice_bounds hs).1⟩ ⟨y.val + r, by have := (slice_bounds hs).2.1; have := y.isLt; omega⟩
          ⟨x.val + c, by have := (slice_bounds hs).2.2; have := x.isLt; omega⟩) := by
  refine (shapeCast_apply _ hc (ix3 n y x) (ix4 n 0 y x) ?_).trans ?_
  · rw [Shape.rowMajor_val_four, Shape.rowMajor_val_three]
    show ((n.val * 1 + 0) * 128 + y.val) * 128 + x.val = (n.val * 128 + y.val) * 128 + x.val
    omega
  · exact extractStridedSlice_apply _ P hs _ _ (fun a => match a with
      | ⟨0, _⟩ => by show n.val = 0 + n.val; omega
      | ⟨1, _⟩ => by show j = j + 0; omega
      | ⟨2, _⟩ => by show y.val + r = r + y.val; omega
      | ⟨3, _⟩ => by show x.val + c = c + x.val; omega)

/-- The scales broadcast over a unit channel axis and then over the 256 channels, at (n, ch, y, x), are the scale at (n, y, x). -/
theorem bcast_scale {α : Type} (s : SScale.Idx → α) {d1 : Fin SScale.rank → Fin STaps.rank} {d2 : Fin STaps.rank → Fin SFea.rank}
    (hd1 : d1 = ![0, 2, 3]) (hd2 : d2 = ![0, 1, 2, 3])
    (h1 : SScale.BroadcastsInDim STaps d1) (h2 : STaps.BroadcastsInDim SFea d2) (n : Fin 8) (ch : Fin 256) (y x : Fin 128) :
    broadcastInDim SFea d2 h2 (broadcastInDim STaps d1 h1 s) (ix4 n ch y x) = s (ix3 n y x) := by
  subst hd1 hd2
  refine (broadcastInDim_apply _ h2 _ (ix4 n ch y x) (ix4 n 0 y x) (fun a => match a with
      | ⟨0, _⟩ => rfl | ⟨1, _⟩ => rfl | ⟨2, _⟩ => rfl | ⟨3, _⟩ => rfl)).trans ?_
  exact broadcastInDim_apply _ h1 s (ix4 n 0 y x) (ix3 n y x) (fun a => match a with
      | ⟨0, _⟩ => rfl | ⟨1, _⟩ => rfl | ⟨2, _⟩ => rfl)

/-! ## One tap out of a window of one batch's block -/

/-- A 128 x 128 window of one plane of a block starts inside the padding margin. -/
theorem window_bounds {j r c : Nat} (inb : ∀ a, (![0, j, r, c] : Fin 4 → Nat) a + STap.size a ≤ SPadBlk.size a) :
    j < 25 ∧ r + 128 ≤ 132 ∧ c + 128 ≤ 132 := by
  have h1 := inb ⟨1, by decide⟩
  have h2 := inb ⟨2, by decide⟩
  have h3 := inb ⟨3, by decide⟩
  have h1' : j + 1 ≤ 25 := h1
  have h2' : r + 128 ≤ 132 := h2
  have h3' : c + 128 ≤ 132 := h3
  exact ⟨h1', h2', h3'⟩

/-- The window [0, j, r:r+128, c:c+128] of a block, its two unit axes dropped, at (y, x) is the block at (0, j, y + r, x + c). -/
theorem window_tap {Val : EltTy → Type} {e : EltTy} (X : SPadBlk.Idx → Val e) {j r c : Nat}
    (inb : ∀ a, (![0, j, r, c] : Fin 4 → Nat) a + STap.size a ≤ SPadBlk.size a) (hc : STap.ShapeCasts SPix) (y x : Fin 128) :
    shapeCast SPix (View.ld X (Rect.unit (s := SPadBlk) ![0, j, r, c] STap.size inb)) hc (ix2 y x)
      = X (ix4 0 ⟨j, (window_bounds inb).1⟩ ⟨y.val + r, by have := (window_bounds inb).2.1; have := y.isLt; omega⟩
          ⟨x.val + c, by have := (window_bounds inb).2.2; have := x.isLt; omega⟩) := by
  refine (shapeCast_apply _ hc (ix2 y x) (ix4 0 0 y x) ?_).trans ?_
  · rw [Shape.rowMajor_val_four, Shape.rowMajor_val_two]
    show ((0 * 1 + 0) * 128 + y.val) * 128 + x.val = y.val * 128 + x.val
    omega
  · show X _ = X _
    refine congrArg X (funext fun a => Fin.ext ?_)
    match a with
    | ⟨0, _⟩ => show 0 + 1 * 0 = 0; omega
    | ⟨1, _⟩ => show j + 1 * 0 = j; omega
    | ⟨2, _⟩ => show r + 1 * y.val = y.val + r; omega
    | ⟨3, _⟩ => show c + 1 * x.val = x.val + c; omega

/-- One batch's scales as a unit-axes block broadcast over the block's 64 channels, at (0, ch, y, x), are the scale at (y, x). -/
theorem bcast_pix {α : Type} (s : SPix.Idx → α) (h1 : SPix.ShapeCasts STap) (h2 : STap.Broadcasts SFeaBlk)
    (ch : Fin 64) (y x : Fin 128) :
    broadcastTo SFeaBlk (shapeCast STap s h1) h2 (ix4 0 ch y x) = s (ix2 y x) := by
  refine (broadcastTo_apply _ h2 (ix4 0 ch y x) (ix4 0 0 y x) (fun a => match a with
      | ⟨0, _⟩ => rfl | ⟨1, _⟩ => rfl | ⟨2, _⟩ => rfl | ⟨3, _⟩ => rfl)).trans ?_
  refine shapeCast_apply s h1 (ix4 0 0 y x) (ix2 y x) ?_
  rw [Shape.rowMajor_val_four, Shape.rowMajor_val_two]
  show y.val * 128 + x.val = ((0 * 1 + 0) * 128 + y.val) * 128 + x.val
  omega

end Cert.TapSum

end
-- ==== Proof.KernelPieces.lean ====
/-
  What one grid point of the kernel leaves behind, read as values.

  At a point whose channel-tile coordinate is 0 the body recomputes the batch's scales from the staged
  block of the padded tensor — 25 windows of the block, one per tap, summed in order from the zero
  word — and stores them whole into the scratch it keeps between points; at every point it then
  reads the scratch back and stores the staged 64 channels of the feature tensor times it.  So:
  the scratch after a recomputing point is the block's scale at every pixel; the output block is
  in both cases (feature block) x (scratch after this point), the scratch broadcast over channels.
-/
import proofs.«175250_j20555713479255_1_alg».proof.Proof.Gen.KernelIdeal.Frame
import proofs.«175250_j20555713479255_1_alg».proof.Proof.TapSum
import Idealize.ShloMosaic.Lib.Pipeline.Value
import Idealize.ShloMosaic.Lib.Tactic

set_option maxRecDepth 16384

noncomputable section

namespace Cert.KernelIdeal.Pieces

open Cert.KernelIdeal Cert.KernelIdeal.Gen Cert.TapSum
open Idealize.ShloMosaic Idealize.ShloMosaic.TcCoe Idealize.ShloMosaic.Tactic Idealize.ShloMosaic.ValueIdx Idealize.SL.Sem

theorem hz2 : (![0, 0] : Fin 2 → Nat) = fun _ => 0 := funext fun a => by fin_cases a <;> rfl
theorem hz4 : (![0, 0, 0, 0] : Fin 4 → Nat) = fun _ => 0 := funext fun a => by fin_cases a <;> rfl

section AnyInstance
variable {F : FTy → Type} [FloatOps F]

/-- A point that recomputes the scales stores the feature block times the scales it has just stored:
    the read-back of the scratch is the store's own payload. -/
theorem out_A (c : Dev nD) (i : grid0.Coords) (arg2 : Memref sig .tc .vmem S1x25x132x132 .f32) (harg2 : arg2.IsWhole) (arg3 : Memref sig .tc .vmem S1x64x128x128 .f32) (harg3 : arg3.IsWhole) (arg4 : Memref sig .tc .vmem S1x64x128x128 .f32) (harg4 : arg4.IsWhole) (arg5 : Memref sig .tc .vmem S128x128 .f32) (harg5 : arg5.IsWhole) (hc0 : cond0_0 i)
    (x0 : Vec F S1x25x132x132 .f32) (x1 : Vec F S1x64x128x128 .f32) :
    out0_A_2 c i arg2 harg2 arg3 harg3 arg4 harg4 arg5 harg5 hc0 x0 x1 = k0_pay2 (sout0_A_0 c i arg2 harg2 arg3 harg3 arg4 harg4 arg5 harg5 hc0 x0 x1) x1 := by
  unfold out0_A_2 sout0_A_0
  rw [View.read_writes_eq_canon _ _ _ (cover0_A_2 c i arg2 harg2 arg3 harg3 arg4 harg4 arg5 harg5 hc0 x0 x1),
    View.read_writes_eq_canon _ _ _ (scover0_A_0 c i arg2 harg2 arg3 harg3 arg4 harg4 arg5 harg5 hc0 x0 x1)]
  unfold kernelRun0_A
  dsimp only
  sl_unfold_words
  rw [View.canon_unit_zero hz4, View.canon_unit_zero hz2]
  simp only [View.readCov_unit_zero (S := S128x128) _ hz2, View.readAt_eq_ld, harg3.read_unread,
    View.ld_unit_zero (S := S1x64x128x128) hz4]

/-- A point that keeps the scales stores the feature block times what the scratch held. -/
theorem out_B (c : Dev nD) (i : grid0.Coords) (arg2 : Memref sig .tc .vmem S1x25x132x132 .f32) (harg2 : arg2.IsWhole) (arg3 : Memref sig .tc .vmem S1x64x128x128 .f32) (harg3 : arg3.IsWhole) (arg4 : Memref sig .tc .vmem S1x64x128x128 .f32) (harg4 : arg4.IsWhole) (arg5 : Memref sig .tc .vmem S128x128 .f32) (harg5 : arg5.IsWhole) (hc0 : ¬cond0_0 i)
    (x0 : Vec F S1x25x132x132 .f32) (x1 : Vec F S1x64x128x128 .f32) (xs0 : Vec F S128x128 .f32) :
    out0_B_2 c i arg2 harg2 arg3 harg3 arg4 harg4 arg5 harg5 hc0 x0 x1 xs0 = k0_pay2 xs0 x1 := by
  unfold out0_B_2
  rw [View.read_writes_eq_canon _ _ _ (cover0_B_2 c i arg2 harg2 arg3 harg3 arg4 harg4 arg5 harg5 hc0 x0 x1 xs0)]
  unfold kernelRun0_B
  dsimp only
  rw [View.canon_unit_zero hz4]
  simp only [View.readAt_eq_ld, harg3.read_unread, harg5.read_unread, View.ld_unit_zero (S := S1x64x128x128) hz4,
    View.ld_unit_zero (S := S128x128) hz2]

end AnyInstance

/-- The stored product at (0, ch, y, x): the feature block there times the scale of pixel (y, x). -/
theorem scaleBlock_apply (s : Vec Ideal S128x128 .f32) (x1 : Vec Ideal S1x64x128x128 .f32) (ch : Fin 64) (y x : Fin 128) :
    k0_pay2 (F := Ideal) s x1 (ix4 0 ch y x) = x1 (ix4 0 ch y x) * s (ix2 y x) := by
  unfold k0_pay2
  refine (mulf_apply _ _ _).trans ?_
  exact congrArg (x1 (ix4 0 ch y x) * ·) (bcast_pix s _ _ ch y x)

/-- The scratch after a recomputing point, at pixel (y, x): the scale of that pixel in the staged block. -/
theorem scratch_A (c : Dev nD) (i : grid0.Coords) (arg2 : Memref sig .tc .vmem S1x25x132x132 .f32) (harg2 : arg2.IsWhole) (arg3 : Memref sig .tc .vmem S1x64x128x128 .f32) (harg3 : arg3.IsWhole) (arg4 : Memref sig .tc .vmem S1x64x128x128 .f32) (harg4 : arg4.IsWhole) (arg5 : Memref sig .tc .vmem S128x128 .f32) (harg5 : arg5.IsWhole) (hc0 : cond0_0 i)
    (x0 : Vec Ideal S1x25x132x132 .f32) (x1 : Vec Ideal S1x64x128x128 .f32) (y x : Fin 128) :
    sout0_A_0 (F := Ideal) c i arg2 harg2 arg3 harg3 arg4 harg4 arg5 harg5 hc0 x0 x1 (ix2 y x) = scale (blkPlanes x0) y x := by
  unfold sout0_A_0
  rw [View.read_writes_eq_canon _ _ _ (scover0_A_0 c i arg2 harg2 arg3 harg3 arg4 harg4 arg5 harg5 hc0 x0 x1)]
  unfold kernelRun0_A
  dsimp only
  sl_unfold_words
  rw [View.canon_unit_zero hz2]
  simp only [View.readAt_eq_ld, harg2.read_unread]
  unfold k0_pay1 k0_pay6 k0_pay4 k0_pay5 k0_pay3
  simp only [shapeCast_self, addf_apply, broadcast_apply, window_tap]
  rfl

end Cert.KernelIdeal.Pieces

end
-- ==== Proof.KernelValue.lean ====
/-
  The kernel's result array, as one function of its two arguments.

  The grid has 32 points; point t works on batch t / 4 and on channels 64 (t % 4) ... 64 (t % 4) + 63.
  Its staged block of the padded tensor is batch t / 4 of it, whatever t % 4 is, so the scales the
  first point of a batch stores in the scratch are the right ones for the three points that follow
  and only read them: after every point the scratch holds the scales of batch t / 4 (induction on
  the point).  Each point then writes back (feature block) x (those scales), which is block t of
  `scaled` of the padded tensor and the feature tensor; the 32 blocks tile the result array.
  Last, the padded tensor the region finds is `padded` of the first argument (the two host
  operations before the region), and the feature tensor is the second argument untouched.
-/
import proofs.«175250_j20555713479255_1_alg».proof.Proof.Gen.KernelIdeal.Value
import proofs.«175250_j20555713479255_1_alg».proof.Proof.KernelPieces
import proofs.«175250_j20555713479255_1_alg».proof.Proof.TapSum
import Idealize.ShloMosaic.Lib.Pipeline.Value
import Idealize.ShloMosaic.Lib.StableHlo.Run

set_option maxRecDepth 16384

noncomputable section

namespace Cert.KernelIdeal.KValue

open Cert.KernelIdeal Cert.KernelIdeal.Gen Cert.KernelIdeal.Value Cert.KernelIdeal.Pieces Cert.TapSum
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The padded filter tensor, the feature tensor, and a point's staged blocks of them, at their literal types. -/
abbrev padArr (c : Dev nD) : Vec Ideal S8x25x132x132 .f32 := V m c main_v0
abbrev feaArr (c : Dev nD) : Vec Ideal S8x256x128x128 .f32 := V m c main_arg1
abbrev padBlk (c : Dev nD) (t : Fin cfg0.N) : Vec Ideal S1x25x132x132 .f32 := iblk m c 0 t
abbrev feaBlk (c : Dev nD) (t : Fin cfg0.N) : Vec Ideal S1x64x128x128 .f32 := iblk m c 1 t

/-- The batch a point works on. -/
def batchOf (n : ℕ) (h : n < cfg0.N) : Fin 8 := ⟨n / 4, by have hN : cfg0.N = 32 := N_0; omega⟩
/-- The first of the 64 channels a point works on, plus an offset inside the tile. -/
def chanOf (n : ℕ) (ch : Fin 64) : Fin 256 := ⟨n % 4 * 64 + ch.val, by have := ch.isLt; omega⟩

/-- The printed index maps over the grid: every window is on batch t / 4; the feature and result windows on channel
    tile t % 4; nothing moves on the two pixel axes. -/
theorem idx_facts : ∀ t : Fin cfg0.N,
    win0_0.index t (0 : Fin 4) = t.val / 4 ∧ win0_0.index t (1 : Fin 4) = 0 ∧ win0_0.index t (2 : Fin 4) = 0 ∧ win0_0.index t (3 : Fin 4) = 0
    ∧ win0_1.index t (0 : Fin 4) = t.val / 4 ∧ win0_1.index t (1 : Fin 4) = t.val % 4 ∧ win0_1.index t (2 : Fin 4) = 0 ∧ win0_1.index t (3 : Fin 4) = 0
    ∧ win0_2.index t (0 : Fin 4) = t.val / 4 ∧ win0_2.index t (1 : Fin 4) = t.val % 4 ∧ win0_2.index t (2 : Fin 4) = 0 ∧ win0_2.index t (3 : Fin 4) = 0 :=
  (by decide +kernel : ∀ t : Fin grid0.N, _)

/-! ## Where a block's entries sit in their arrays -/

theorem pad_emb (t : Fin cfg0.N) (j : Fin 25) (a b : Fin 132) :
    ((cfg0.win 0).blk t).view.emb (ix4 0 j a b) = ix4 (batchOf t.val t.isLt) j a b := by
  obtain ⟨e0, e1, e2, e3, -⟩ := idx_facts t
  funext ax; apply Fin.ext
  match ax with
  | ⟨0, _⟩ => show win0_0.index t (0 : Fin 4) * 1 + 1 * 0 = t.val / 4; omega
  | ⟨1, _⟩ => show win0_0.index t (1 : Fin 4) * 25 + 1 * j.val = j.val; omega
  | ⟨2, _⟩ => show win0_0.index t (2 : Fin 4) * 132 + 1 * a.val = a.val; omega
  | ⟨3, _⟩ => show win0_0.index t (3 : Fin 4) * 132 + 1 * b.val = b.val; omega

theorem fea_emb (t : Fin cfg0.N) (ch : Fin 64) (y x : Fin 128) :
    ((cfg0.win 1).blk t).view.emb (ix4 0 ch y x) = ix4 (batchOf t.val t.isLt) (chanOf t.val ch) y x := by
  obtain ⟨-, -, -, -, e0, e1, e2, e3, -⟩ := idx_facts t
  funext ax; apply Fin.ext
  match ax with
  | ⟨0, _⟩ => show win0_1.index t (0 : Fin 4) * 1 + 1 * 0 = t.val / 4; omega
  | ⟨1, _⟩ => show win0_1.index t (1 : Fin 4) * 64 + 1 * ch.val = t.val % 4 * 64 + ch.val; omega
  | ⟨2, _⟩ => show win0_1.index t (2 : Fin 4) * 128 + 1 * y.val = y.val; omega
  | ⟨3, _⟩ => show win0_1.index t (3 : Fin 4) * 128 + 1 * x.val = x.val; omega

theorem out_emb (t : Fin cfg0.N) (ch : Fin 64) (y x : Fin 128) :
    ((cfg0.win 2).blk t).view.emb (ix4 0 ch y x) = ix4 (batchOf t.val t.isLt) (chanOf t.val ch) y x := by
  obtain ⟨-, -, -, -, -, -, -, -, e0, e1, e2, e3⟩ := idx_facts t
  funext ax; apply Fin.ext
  match ax with
  | ⟨0, _⟩ => show win0_2.index t (0 : Fin 4) * 1 + 1 * 0 = t.val / 4; omega
  | ⟨1, _⟩ => show win0_2.index t (1 : Fin 4) * 64 + 1 * ch.val = t.val % 4 * 64 + ch.val; omega
  | ⟨2, _⟩ => show win0_2.index t (2 : Fin 4) * 128 + 1 * y.val = y.val; omega
  | ⟨3, _⟩ => show win0_2.index t (3 : Fin 4) * 128 + 1 * x.val = x.val; omega

/-- A point's staged block of the padded tensor is its batch of it. -/
theorem padBlk_apply (c : Dev nD) (t : Fin cfg0.N) (j : Fin 25) (a b : Fin 132) :
    padBlk m c t (ix4 0 j a b) = padArr m c (ix4 (batchOf t.val t.isLt) j a b) := by
  show V m c main_v0 (((cfg0.win 0).blk t).view.emb (ix4 0 j a b)) = _
  rw [pad_emb]

theorem blkPlanes_padBlk (c : Dev nD) (t : Fin cfg0.N) :
    blkPlanes (padBlk m c t) = planes (padArr m c) (batchOf t.val t.isLt) := by
  funext j a b
  exact padBlk_apply m c t j a b

/-- A point's staged block of the feature tensor is its batch's channel tile. -/
theorem feaBlk_apply (c : Dev nD) (t : Fin cfg0.N) (ch : Fin 64) (y x : Fin 128) :
    feaBlk m c t (ix4 0 ch y x) = feaArr m c (ix4 (batchOf t.val t.isLt) (chanOf t.val ch) y x) := by
  show V m c main_arg1 (((cfg0.win 1).blk t).view.emb (ix4 0 ch y x)) = _
  rw [fea_emb]

/-! ## The scratch after every point: the scales of the point's batch -/

theorem scratch_eq (c : Dev nD) (n : ℕ) : ∀ (h : n < cfg0.N) (y x : Fin 128),
    (outsAt0 m c n h).2 (ix2 y x) = scale (planes (padArr m c) (batchOf n h)) y x := by
  have hN : cfg0.N = 32 := N_0
  induction n with
  | zero =>
    intro h y x
    rw [outsAt0_A m c ⟨0, h⟩ rfl]; dsimp only
    refine (scratch_A c _ _ _ _ _ _ _ _ _ _ (padBlk m c ⟨0, h⟩) (feaBlk m c ⟨0, h⟩) y x).trans ?_
    rw [blkPlanes_padBlk]
  | succ k ih =>
    intro h y x
    by_cases h0 : (k + 1) % 4 = 0
    · rw [outsAt0_A m c ⟨k + 1, h⟩ h0]; dsimp only
      refine (scratch_A c _ _ _ _ _ _ _ _ _ _ (padBlk m c ⟨k + 1, h⟩) (feaBlk m c ⟨k + 1, h⟩) y x).trans ?_
      rw [blkPlanes_padBlk]
    · rw [outsAt0_B m c ⟨k + 1, h⟩ h0]; dsimp only
      unfold sout0_B_0
      show (outsAt0 m c k _).2 (ix2 y x) = _
      refine (ih (Nat.lt_of_succ_lt h) y x).trans ?_
      have e : batchOf k (Nat.lt_of_succ_lt h) = batchOf (k + 1) h := Fin.ext (by show k / 4 = (k + 1) / 4; omega)
      rw [e]

/-! ## What every point writes back -/

/-- The output block after a point is the feature block times the scratch after that point. -/
theorem out_eq (c : Dev nD) (t : Fin cfg0.N) :
    (outsAt0 m c t.val t.isLt).1 = k0_pay2 (outsAt0 m c t.val t.isLt).2 (feaBlk m c t) := by
  by_cases h0 : t.val % 4 = 0
  · rw [outsAt0_A m c t h0]; dsimp only
    exact out_A c _ _ _ _ _ _ _ _ _ _ _ _
  · rw [outsAt0_B m c t h0]; dsimp only
    unfold sout0_B_0
    exact out_B c _ _ _ _ _ _ _ _ _ _ _ _ _

/-- At an entry of the block: `scaled` of the two arrays, where the entry sits in the result array. -/
theorem flushed_point (c : Dev nD) (t : Fin cfg0.N) (j : S1x64x128x128.Idx) :
    k0_pay2 (outsAt0 m c t.val t.isLt).2 (feaBlk m c t) j
      = scaled (padArr m c) (feaArr m c) (((cfg0.win 2).blk t).view.emb j) := by
  obtain ⟨a, ch, y, x, rfl⟩ : ∃ (a : Fin 1) (ch : Fin 64) (y x : Fin 128), j = ix4 a ch y x := ⟨j 0, j 1, j 2, j 3, eq_ix4 j⟩
  obtain rfl : a = 0 := Subsingleton.elim _ _
  rw [out_emb, scaled_apply, scaleBlock_apply, feaBlk_apply, scratch_eq m c t.val t.isLt y x]

theorem flushed_eq (c : Dev nD) (t : Fin cfg0.N) :
    (dats m 0 c).flushed 2 t = ((cfg0.win 2).blk t).view.read (Elt Ideal) (scaled (padArr m c) (feaArr m c)) := by
  rw [flushed2, out_eq]
  funext j
  exact flushed_point m c t j

/-! ## The 32 blocks tile the result array -/

theorem mem_blk (t : Fin cfg0.N) (i : S8x256x128x128.Idx) :
    i ∈ ((cfg0.win 2).blk t).view.set ↔ ∀ a : Fin 4, win0_2.index t a * S1x64x128x128.size a ≤ (i a).val ∧ (i a).val < win0_2.index t a * S1x64x128x128.size a + S1x64x128x128.size a := by
  show i ∈ ((View.whole main_v1).slice (win0_2.rect t)).set ↔ _
  rw [View.set_slice_whole, Rect.mem_set_unit]
  exact Iff.rfl

theorem cover (i : S8x256x128x128.Idx) :
    ∃ t : Fin cfg0.N, (cfg0.win 2).flush t = true ∧ i ∈ ((cfg0.win 2).blk t).view.set := by
  have hN : cfg0.N = 32 := N_0
  have h0 : (i 0).val < 8 := (i 0).isLt
  have h1 : (i 1).val < 256 := (i 1).isLt
  have h2 : (i 2).val < 128 := (i 2).isLt
  have h3 : (i 3).val < 128 := (i 3).isLt
  refine ⟨⟨(i 0).val * 4 + (i 1).val / 64, by omega⟩, flush0_2 _, ?_⟩
  obtain ⟨-, -, -, -, -, -, -, -, e0, e1, e2, e3⟩ := idx_facts ⟨(i 0).val * 4 + (i 1).val / 64, by omega⟩
  rw [mem_blk]
  intro a
  match a with
  | ⟨0, _⟩ => show win0_2.index _ (0 : Fin 4) * 1 ≤ (i 0).val ∧ (i 0).val < win0_2.index _ (0 : Fin 4) * 1 + 1; dsimp only at e0; omega
  | ⟨1, _⟩ => show win0_2.index _ (1 : Fin 4) * 64 ≤ (i 1).val ∧ (i 1).val < win0_2.index _ (1 : Fin 4) * 64 + 64; dsimp only at e1; omega
  | ⟨2, _⟩ => show win0_2.index _ (2 : Fin 4) * 128 ≤ (i 2).val ∧ (i 2).val < win0_2.index _ (2 : Fin 4) * 128 + 128; omega
  | ⟨3, _⟩ => show win0_2.index _ (3 : Fin 4) * 128 ≤ (i 3).val ∧ (i 3).val < win0_2.index _ (3 : Fin 4) * 128 + 128; omega

/-- THE RESULT ARRAY after the run. -/
theorem final (c : Dev nD) : (dats m 0 c).arrAt 2 cfg0.N = scaled (padArr m c) (feaArr m c) :=
  (dats m 0 c).arrAt_eq_of_cover 2 (scaled (padArr m c) (feaArr m c)) (fun t _ => flushed_eq m c t) cover

/-! ## The arrays the region finds, from the arguments -/

theorem padArr_eq (c : Dev nD) : padArr m c = padded (m ((c : Thread nD τ).loc main_arg0)) := by
  show (V m c main_v0 : S8x25x132x132.Idx → EReal) = _
  dsimp only [Gen.V]
  simp only [Gen.hostOps0, Gen.hostOps0_1, List.flatten_cons, List.flatten_nil, List.append_nil, List.cons_append, List.nil_append]
  after_results
  rfl

theorem feaArr_eq (c : Dev nD) : feaArr m c = m ((c : Thread nD τ).loc main_arg1) := V_main_arg1 m c

/-- The run, read: the result array is `scaled` of the padded first argument and the second; the arguments are kept. -/
theorem run : θ_run defs (onTc (τ := τ) (main (F := Ideal))) ⟨m, fun _ => 0, ρ⟩ fun r => ∀ c : Dev nD,
      r.2.mem ((c : Thread nD τ).loc main_v1)
          = scaled (padded (m ((c : Thread nD τ).loc main_arg0))) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((final m c).trans (by rw [padArr_eq, feaArr_eq])), (h c).2⟩)
    (run_blocks m ρ)

end Cert.KernelIdeal.KValue

end
-- ==== Proof.RefValue.lean ====
/-
  The reference's result is the feature tensor times the pixel scales of the padded filter tensor.

  The reference pads the filter tensor, starts from the zero tensor [8, 128, 128], adds the 25 slices
  [0:8, j:j+1, r:r+128, c:c+128] of the padded tensor (unit axis dropped) in the order j = 0, ..., 24,
  broadcasts the sum over the channel axis and multiplies the feature tensor by it.  Read at an index
  (n, ch, y, x) each slice is one tap of pixel (y, x) in batch n, so the sum is that pixel's scale.
-/
import proofs.«175250_j20555713479255_1_alg».proof.Proof.Gen.ReferenceIdeal.Run
import proofs.«175250_j20555713479255_1_alg».proof.Proof.TapSum
import Idealize.ShloMosaic.Lib.Pipeline.Value

set_option maxRecDepth 16384

noncomputable section

namespace Cert.ReferenceIdeal.RefValue

open Cert.ReferenceIdeal Cert.ReferenceIdeal.Gen Cert.ReferenceIdeal.Value Cert.TapSum
open Idealize.ShloMosaic Idealize.ShloMosaic.TcCoe Idealize.ShloMosaic.ValueIdx Idealize.SL.Sem

/-- Two products with the same left factor and equal right factors (stated over the extended reals, where the
    factors' types are spelt out). -/
theorem mul_congr_scale {a s s' : EReal} (h : s = s') : a * s = a * s' := congrArg (a * ·) h

/-- The reference run's result term is `scaled` of the padded first argument and the second argument. -/
theorem result_eq (m : (ℓ : Loc nD τ sig) → Buf (Elt Ideal) ℓ) (c : Dev nD) :
    (res_main_v79 (F := Ideal) m c : Vec Ideal S8x256x128x128 .f32)
      = scaled (padded (m ((c.tc : Thread nD τ).loc main_arg0))) (m ((c.tc : Thread nD τ).loc main_arg1)) := by
  funext i
  obtain ⟨n, ch, y, x, rfl⟩ : ∃ (n : Fin 8) (ch : Fin 256) (y x : Fin 128), i = ix4 n ch y x := ⟨i 0, i 1, i 2, i 3, eq_ix4 i⟩
  rw [scaled_apply]
  unfold res_main_v79
  refine (mulf_apply _ _ _).trans ?_
  refine mul_congr_scale ?_
  refine (bcast_scale _ rfl rfl _ _ n ch y x).trans ?_
  simp only [addf_apply, slice_tap]
  rfl

end Cert.ReferenceIdeal.RefValue

end
-- ==== Proof.lean ====
/-
  A dynamic-filter product: out[n, ch, y, x] = low[n, ch, y, x] * S[n, y, x], where the per-pixel scale
  S[n, y, x] is the sum over the 25 taps j = 5a + b (a, b < 5) of P[n, j, y + (4 - a), x + (4 - b)] and P is the
  filter tensor [8, 25, 128, 128] zero-padded by two on each side of its two last axes.

  The kernel walks a grid of 8 batches x 4 channel tiles.  At the first tile of a batch it adds the 25 windows
  of the batch's padded block, in the order j = 0, ..., 24 from the zero word, into a scratch that it keeps for
  the batch's other three tiles; at every tile it multiplies 64 channels of the feature tensor by the scratch.
  The reference adds the same 25 slices of the whole padded tensor in the same order and multiplies the whole
  feature tensor by the broadcast sum.  Entry by entry both are low * ((((0 + tap 0) + tap 1) + ...) + tap 24)
  with the same taps in the same order (Proof/TapSum.lean), so over the extended reals the two results are
  equal without re-associating a sum: the hypothesis that the inputs are finite is not used.

    Proof/TapSum.lean       the scale and the result as functions; one tap read out of a slice and out of a window
    Proof/KernelPieces.lean what one grid point leaves in the scratch and in the output block
    Proof/KernelValue.lean  the scratch after every point (induction), the blocks written back, the result array
    Proof/RefValue.lean     the reference's result term is the same function

  The three frames: the two kernel programs' are their whole-frame runs; the reference has no kernel, and its
  frame is its run with the result dropped.  The idealization rewrote nothing, so `preserves` is `True`.
-/
import proofs.«175250_j20555713479255_1_alg».proof.Defs
import proofs.«175250_j20555713479255_1_alg».proof.Proof.Gen.Kernel
import proofs.«175250_j20555713479255_1_alg».proof.Proof.Gen.Kernel.Frame
import proofs.«175250_j20555713479255_1_alg».proof.Proof.Gen.KernelIdeal
import proofs.«175250_j20555713479255_1_alg».proof.Proof.Gen.KernelIdeal.Frame
import proofs.«175250_j20555713479255_1_alg».proof.Proof.Gen.KernelIdeal.Value
import proofs.«175250_j20555713479255_1_alg».proof.Proof.Gen.ReferenceIdeal
import proofs.«175250_j20555713479255_1_alg».proof.Proof.Gen.ReferenceIdeal.Run
import proofs.«175250_j20555713479255_1_alg».proof.Proof.Gen.Pre_finite_inputs
import proofs.«175250_j20555713479255_1_alg».proof.Proof.TapSum
import proofs.«175250_j20555713479255_1_alg».proof.Proof.KernelValue
import proofs.«175250_j20555713479255_1_alg».proof.Proof.RefValue
import Idealize.ShloMosaic.Adequacy
import Idealize.ShloMosaic.Init

noncomputable section

namespace Cert.Proof

open Idealize.ShloMosaic Idealize.ShloMosaic.TcCoe Idealize.SL.Sem Cert.TapSum

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the two arguments both programs end with the result array at
    `scaled (padded kernel) low`: the kernel by its blocks (Proof/KernelValue.lean), the reference by its
    run's term (Proof/RefValue.lean). -/
theorem algebraic : Cert.algebraic_KernelIdeal_ReferenceIdeal := by
  intro m ρ m' ρ' _ hagree
  refine ⟨fun c => scaled (padded (m ((c.tc : Thread Cert.KernelIdeal.nD Cert.KernelIdeal.τ).loc Cert.KernelIdeal.main_arg0)))
      (m ((c.tc : Thread Cert.KernelIdeal.nD Cert.KernelIdeal.τ).loc Cert.KernelIdeal.main_arg1)),
    Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.RefValue.result_eq m' c).trans ?_
  rw [(hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
